-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.SqDist.lean ====
/-
  The pairwise squared distance, as one function of the two point arrays.

  For points `x r` (the rows of an `[N, K]` array) and `y s` (the rows of an `[M, K]` array) the entry `(r, s)`
  of the result is written in the expanded form both programs compute:
      (∑ k, x r k * x r k  +  ∑ k, y s k * y s k)  -  2 * ∑ k, x r k * y s k
  on the extended reals, the factor `2` being the float `2.0` read exactly. Nothing here opens that word: it is
  the same on both sides. The entry depends on row `r` of `x` and row `s` of `y` only, which is what lets a
  `[1024, 1024]` tile of the result be computed from one `[1024, 256]` block of each operand.
-/
import Idealize.ShloMosaic.PureOps.Ideal
import Idealize.ShloMosaic.Lib.ValueIdx

noncomputable section

open scoped BigOperators

namespace Cert.SqDist

open Idealize.ShloMosaic Idealize.ShloMosaic.ValueIdx

/-- The sum of the squares of row `r` of an `[N, K]` array. -/
def rowSq {N K : ℕ} (x : (⟨2, ![N, K]⟩ : Shape).Idx → EReal) (r : Fin N) : EReal :=
  ∑ k : Fin K, x (ix2 r k) * x (ix2 r k)

/-- The inner product of row `r` of `x` with row `s` of `y`. -/
def rowDot {N M K : ℕ} (x : (⟨2, ![N, K]⟩ : Shape).Idx → EReal) (y : (⟨2, ![M, K]⟩ : Shape).Idx → EReal)
    (r : Fin N) (s : Fin M) : EReal :=
  ∑ k : Fin K, x (ix2 r k) * y (ix2 s k)

/-- Entry `(r, s)` of the squared-distance matrix in its expanded form. -/
def entry {N M K : ℕ} (x : (⟨2, ![N, K]⟩ : Shape).Idx → EReal) (y : (⟨2, ![M, K]⟩ : Shape).Idx → EReal)
    (r : Fin N) (s : Fin M) : EReal :=
  (rowSq x r + rowSq y s) - Ideal.ofBits .f32 0x40000000#32 * rowDot x y r s

/-- The whole matrix, index by index. -/
def sqDist {N M K : ℕ} (x : (⟨2, ![N, K]⟩ : Shape).Idx → EReal) (y : (⟨2, ![M, K]⟩ : Shape).Idx → EReal) :
    (⟨2, ![N, M]⟩ : Shape).Idx → EReal :=
  fun i => entry x y (i 0) (i 1)

theorem sqDist_ix2 {N M K : ℕ} (x : (⟨2, ![N, K]⟩ : Shape).Idx → EReal) (y : (⟨2, ![M, K]⟩ : Shape).Idx → EReal)
    (r : Fin N) (s : Fin M) : sqDist x y (ix2 r s) = entry x y r s := rfl

/-- An entry of a tile is the entry of the whole matrix: if the rows `p` of the block `bx` and `q` of the block
    `byy` are the rows `r` of `x` and `s` of `y`, the tile's entry `(p, q)` is the matrix's entry `(r, s)`. -/
theorem entry_congr {N M N' M' K : ℕ} (bx : (⟨2, ![N', K]⟩ : Shape).Idx → EReal) (byy : (⟨2, ![M', K]⟩ : Shape).Idx → EReal)
    (x : (⟨2, ![N, K]⟩ : Shape).Idx → EReal) (y : (⟨2, ![M, K]⟩ : Shape).Idx → EReal)
    (p : Fin N') (q : Fin M') (r : Fin N) (s : Fin M)
    (hx : ∀ k : Fin K, bx (ix2 p k) = x (ix2 r k)) (hy : ∀ k : Fin K, byy (ix2 q k) = y (ix2 s k)) :
    entry bx byy p q = entry x y r s := by
  unfold entry rowSq rowDot
  simp only [hx, hy]

end Cert.SqDist

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Tile.lean ====
/-
  What the kernel body computes from its two loaded blocks, entry by entry.

  The body takes a `[1024, 256]` block `bx` of `x` and a `[1024, 256]` block `by` of `y`. It sums the squares of each
  row of either block, lays the first sums out as a column and the second, transposed, as a row, spreads both over
  the `[1024, 1024]` tile and adds them; it multiplies `bx` by the transpose of `by` into a zero accumulator (the
  change to the narrow format and back is the identity on the extended reals); and it subtracts twice the product.
  At entry `(p, q)` that is the squared distance's expanded form for row `p` of `bx` and row `q` of `by`.
-/
import proofs.«121922_j22445499089119_1_alg».proof.Proof.Gen.KernelIdeal.Skeleton
import proofs.«121922_j22445499089119_1_alg».proof.Proof.SqDist
import proofs.«121922_j22445499089119_1_alg».proof.Proof.LibPlainDot
import proofs.«121922_j22445499089119_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.SqDist

open Idealize.ShloMosaic Idealize.ShloMosaic.ValueIdx Cert.KernelIdeal Cert.KernelIdeal.Gen

/-- The index a lane sum reads: row `p` with the summed coordinate `k` put in on the second axis. -/
theorem lane_index (p : Fin 1024) (k : Fin 256) : reduces_S1024x256_S1024.lift (ix1 p) k = ix2 p k :=
  funext fun c => Fin.ext (by match c with | ⟨0, _⟩ => rfl | ⟨1, _⟩ => rfl)

/-- A lane sum of a block's squares, at row `p`: the sum over the 256 columns. -/
theorem laneSum_sq (b : Vec Ideal S1024x256 .f32) (hacc : (0x00000000#32 : BitVec 32) = 0x00000000#32) (p : Fin 1024) :
    multiReduction (F := Ideal) .add [1] S1024 (mulf b b) 0x00000000#32 reduces_S1024x256_S1024 (.inl rfl) hacc (ix1 p)
      = rowSq b p :=
  (Ideal.multiReduction_add_single (mulf b b) 0x00000000#32 reduces_S1024x256_S1024 (.inl rfl) hacc (ix1 p)).trans
    (Finset.sum_congr rfl fun k _ => by
      show b (reduces_S1024x256_S1024.lift (ix1 p) k) * b (reduces_S1024x256_S1024.lift (ix1 p) k) = _
      rw [lane_index p k])

/-- A vector of row sums laid out as a column and spread across the tile reads, at `(p, q)`, the sum of row `p`. -/
theorem column_spread (v : FVec Ideal S1024 .f32) (p q : Fin 1024) :
    broadcastTo S1024x1024 (shapeCast S1024x1 v shapeCasts_S1024_S1024x1) broadcasts_S1024x1_S1024x1024 (ix2 p q) = v (ix1 p) :=
  (Cert.Keepdims.broadcastTo_a1_ab_apply _ _ p q).trans (Cert.Keepdims.shapeCast_a_a1_apply v _ p 0)

/-- The same column transposed to a row and spread down the tile reads, at `(p, q)`, the sum of row `q`. -/
theorem row_spread (v : FVec Ideal S1024 .f32) (p q : Fin 1024) :
    broadcastTo S1024x1024 (transpose S1x1024 [1, 0] (shapeCast S1024x1 v shapeCasts_S1024_S1024x1) transposes_S1024x1_p1_0_S1x1024)
      broadcasts_S1x1024_S1024x1024 (ix2 p q) = v (ix1 q) :=
  (broadcastTo_1b_ab_apply _ _ p q).trans
    ((transpose_ix2_apply _ _ (0 : Fin 1) q).trans (Cert.Keepdims.shapeCast_a_a1_apply v _ q 0))

/-- The product of one block with the transpose of the other, into zero: the inner product of row `p` with row `q`. -/
theorem cross (bx byy : Vec Ideal S1024x256 .f32) (p q : Fin 1024) :
    matmul (F := Ideal) dot_S1024x256_S256x1024_S1024x1024_1_0_0_1_n_n none (truncf .bf16 bx bitsLt_bf16_f32)
        (transpose S256x1024 [1, 0] (truncf .bf16 byy bitsLt_bf16_f32) transposes_S1024x256_p1_0_S256x1024)
        (constant S1024x1024 .f32 0x00000000#32) (ix2 p q)
      = rowDot bx byy p q :=
  (Cert.PlainDot.matmul_zero_apply dot_S1024x256_S256x1024_S1024x1024_1_0_0_1_n_n rfl none _ _ (ix2 p q)).trans
    (Finset.sum_congr rfl fun k _ => congrArg (bx (ix2 p k) * ·) (transpose_ix2_apply _ _ k q))

/-- THE TILE: the body's stored value at `(p, q)` is the squared distance's entry for row `p` of the first block
    and row `q` of the second. -/
theorem tile_apply (bx byy : Vec Ideal S1024x256 .f32) (p q : Fin 1024) :
    k0_pay1 (F := Ideal) bx byy (ix2 p q) = entry bx byy p q := by
  unfold k0_pay1 entry
  dsimp only
  refine congrArg₂ (· - ·) (congrArg₂ (· + ·) ?_ ?_) (congrArg₂ (· * ·) rfl (cross bx byy p q))
  · exact (column_spread _ p q).trans (laneSum_sq bx rfl p)
  · exact (row_spread _ p q).trans (laneSum_sq byy rfl q)

end Cert.SqDist

end
-- ==== Proof.Whole.lean ====
/-
  From tiles to the whole matrix.

  The grid has 8 x 8 points. Point `(i, j)` loads rows `1024 i …` of `x` (block `(i, 0)`), rows `1024 j …` of `y`
  (block `(j, 0)`) and writes tile `(i, j)` of the result. A tile entry `(p, q)` is the matrix entry
  `(1024 i + p, 1024 j + q)`, which depends on exactly row `1024 i + p` of `x` and row `1024 j + q` of `y`: the rows
  `p` and `q` of the two loaded blocks. So every point writes back its tile of ONE function of the argument arrays,
  the 64 tiles cover the `[8192, 8192]` array (entry `(r, s)` lies in tile `(r / 1024, s / 1024)`), and the array
  ends holding that function.
-/
import proofs.«121922_j22445499089119_1_alg».proof.Proof.Gen.KernelIdeal.Value
import proofs.«121922_j22445499089119_1_alg».proof.Proof.Tile

noncomputable section

namespace Cert.SqDist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two point arrays as the region finds them, and the two blocks a point loads, at their literal types. -/
abbrev xs (c : Dev nD) : Vec Ideal S8192x256 .f32 := V m c main_arg0
abbrev ys (c : Dev nD) : Vec Ideal S8192x256 .f32 := V m c main_arg1
abbrev xblock (c : Dev nD) (t : Fin cfg0.N) : Vec Ideal S1024x256 .f32 := iblk m c 0 t
abbrev yblock (c : Dev nD) (t : Fin cfg0.N) : Vec Ideal S1024x256 .f32 := iblk m c 1 t

theorem origin : (![0, 0] : Fin 2 → Nat) = fun _ => 0 := funext fun a => by fin_cases a <;> rfl

/-- The block indices over the grid: the `x` block follows the tile's row index, the `y` block the tile's column
    index, both at column block 0; the tile indices stay below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile index `(a, b)` below `(8, 8)` is some point's. -/
theorem tile_of : ∀ (a b : Fin 8), ∃ t : Fin cfg0.N, win0_2.index t = ![a.val, b.val] :=
  (by decide +kernel : ∀ (a b : Fin 8), ∃ t : Fin grid0.N, win0_2.index t = ![a.val, b.val])

/-- WHAT POINT `t` WRITES BACK is tile `t` of the squared-distance matrix of the two argument arrays. -/
theorem flushed_tile (c : Dev nD) (t : Fin cfg0.N) :
    (dats m 0 c).flushed 2 t = ((cfg0.win 2).blk t).view.read (Elt Ideal) (sqDist (xs m c) (ys m c)) := by
  rw [Cert.KernelIdeal.Value.flushed2]
  unfold out0_2
  rw [View.canon_unit_zero origin]
  simp only [View.ld_unit_zero (S := S1024x256) origin]
  obtain ⟨e0, e1, e2, e3, -, -⟩ := block_indices t
  funext j
  obtain ⟨p, q, rfl⟩ : ∃ (p q : Fin 1024), j = ix2 p q := ⟨j 0, j 1, eq_ix2 j⟩
  show k0_pay1 (xblock m c t) (yblock m c t) (ix2 p q)
    = entry (xs m c) (ys m c) (((cfg0.win 2).blk t).view.emb (ix2 p q) 0) (((cfg0.win 2).blk t).view.emb (ix2 p q) 1)
  refine (tile_apply (xblock m c t) (yblock m c t) p q).trans
    (entry_congr (xblock m c t) (yblock m c t) (xs m c) (ys m c) p q _ _ (fun k => ?_) (fun k => ?_))
  · show xs m c (((cfg0.win 0).blk t).view.emb (ix2 p k)) = xs m c (ix2 (((cfg0.win 2).blk t).view.emb (ix2 p q) 0) k)
    refine congrArg (xs m c) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  · show ys m c (((cfg0.win 1).blk t).view.emb (ix2 q k)) = ys m c (ix2 (((cfg0.win 2).blk t).view.emb (ix2 p q) 1) k)
    refine congrArg (ys m c) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 256 + 1 * k.val = k.val; omega

/-- An entry is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Entry `(r, s)` lies in the tile of index `(r / 1024, s / 1024)`: the tiles cover the matrix. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_of ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run is the squared-distance matrix of the argument arrays. -/
theorem whole (c : Dev nD) :
    (dats m 0 c).arrAt 2 cfg0.N
      = sqDist (N := 8192) (M := 8192) (K := 256) (m ((c : Thread nD τ).loc main_arg0)) (m ((c : Thread nD τ).loc main_arg1)) :=
  (dats m 0 c).arrAt_eq_of_cover 2 (sqDist (xs m c) (ys m c)) (fun t _ => flushed_tile m c t) tiles_cover

/-- The kernel's run, read: the result array ends at the squared-distance matrix, the arguments unchanged. -/
theorem kernel_run : θ_run defs (onTc (τ := τ) (main (F := Ideal))) ⟨m, fun _ => 0, ρ⟩ fun r => ∀ c : Dev nD,
      r.2.mem ((c : Thread nD τ).loc main_v0)
        = sqDist (N := 8192) (M := 8192) (K := 256) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (whole m c), (h c).2⟩) (Cert.KernelIdeal.Value.run_blocks m ρ)

end Cert.SqDist

end
-- ==== Proof.RefDist.lean ====
/-
  The reference computes the same matrix.

  The reference squares both arrays, sums each row of either (from the initial value `0.0`), spreads the first
  vector of sums along the rows of an `[8192, 8192]` array and the second along its columns, adds them, contracts
  `x` with `y` over their last axes, and subtracts twice the contraction. Read at entry `(r, s)`, stage by stage,
  that is the sum of the squares of row `r` of `x`, plus the sum of the squares of row `s` of `y`, minus `2.0`
  times the inner product of the two rows: the squared distance's expanded form. The only arithmetic used is
  `0 + a = a` for the sums' initial value.
-/
import proofs.«121922_j22445499089119_1_alg».proof.Proof.Gen.ReferenceIdeal.Read
import proofs.«121922_j22445499089119_1_alg».proof.Proof.SqDist

noncomputable section

open scoped BigOperators

namespace Cert.SqDist

open Cert.ReferenceIdeal Cert.ReferenceIdeal.Gen Cert.ReferenceIdeal.Read
open Idealize.ShloMosaic Idealize.ShloMosaic.ValueIdx

/-- The reference's result, as a function of its two arguments, is the squared-distance matrix. -/
theorem reference_eq (x y : (⟨S8192x256, .f32⟩ : BufTy).Contents (Elt Ideal)) :
    val_main_v12 (F := Ideal) x y = sqDist (N := 8192) (M := 8192) (K := 256) x y := by
  funext i
  obtain ⟨r, s, rfl⟩ : ∃ (r s : Fin 8192), i = ix2 r s := ⟨i 0, i 1, eq_ix2 i⟩
  -- the composed index functions of the stages, by coordinates
  have ex : ∀ k : Fin 256, idx_main_v1 (idx_main_v5 (idx_main_v7 (ix2 r s))) k = ix2 r k := fun k =>
    funext fun a => Fin.ext (by match a with | ⟨0, _⟩ => rfl | ⟨1, _⟩ => rfl)
  have ey : ∀ k : Fin 256, idx_main_v3 (idx_main_v6 (idx_main_v8 (ix2 r s))) k = ix2 s k := fun k =>
    funext fun a => Fin.ext (by match a with | ⟨0, _⟩ => rfl | ⟨1, _⟩ => rfl)
  have el : ∀ k : Fin 256, lidx_main_v4 (ix2 r s) k = ix2 r k := fun k =>
    funext fun a => Fin.ext (by match a with | ⟨0, _⟩ => rfl | ⟨1, _⟩ => rfl)
  have er : ∀ k : Fin 256, ridx_main_v4 (ix2 r s) k = ix2 s k := fun k =>
    funext fun a => Fin.ext (by match a with | ⟨0, _⟩ => rfl | ⟨1, _⟩ => rfl)
  -- the row sums of squares, spread along the rows and along the columns
  have hx : val_main_v7 (F := Ideal) x (ix2 r s) = rowSq (N := 8192) (K := 256) x r := by
    rw [val_main_v7_apply, val_main_v5_apply, val_main_v1_apply]
    show Ideal.ofBits .f32 0x00000000#32 + ∑ k : Fin 256, x (idx_main_v1 _ k) * x (idx_main_v1 _ k) = _
    rw [Ideal.ofBits_zero_f32, zero_add]
    exact Finset.sum_congr rfl fun k _ => by rw [ex k]
  have hy : val_main_v8 (F := Ideal) y (ix2 r s) = rowSq (N := 8192) (K := 256) y s := by
    rw [val_main_v8_apply, val_main_v6_apply, val_main_v3_apply]
    show Ideal.ofBits .f32 0x00000000#32 + ∑ k : Fin 256, y (idx_main_v3 _ k) * y (idx_main_v3 _ k) = _
    rw [Ideal.ofBits_zero_f32, zero_add]
    exact Finset.sum_congr rfl fun k _ => by rw [ey k]
  -- the contraction of the two arrays over their last axes
  have hd : val_main_v4 (F := Ideal) x y (ix2 r s) = rowDot (N := 8192) (M := 8192) (K := 256) x y r s := by
    rw [val_main_v4_apply]
    exact Finset.sum_congr rfl fun k _ => by rw [el k, er k]
  have h2 : val_main_v10 (F := Ideal) (ix2 r s) = Ideal.ofBits .f32 0x40000000#32 := by
    rw [val_main_v10_apply]; rfl
  show (val_main_v7 (F := Ideal) x (ix2 r s) + val_main_v8 (F := Ideal) y (ix2 r s))
      - val_main_v10 (F := Ideal) (ix2 r s) * val_main_v4 (F := Ideal) x y (ix2 r s) = entry x y r s
  rw [hx, hy, hd, h2]
  rfl

end Cert.SqDist

end
-- ==== Proof.lean ====
/-
  Pairwise squared distances: z[r, s] = ‖x r‖² + ‖y s‖² − 2 ⟨x r, y s⟩ over x, y : [8192, 256].

  The kernel tiles the [8192, 8192] result 8 x 8. At a tile it loads 1024 rows of `x` and 1024 rows of `y`, sums the
  squares of each row, and takes the rows' inner products as one matrix product of the `x` block with the transposed
  `y` block. The reference does the same on the whole arrays. On the extended reals both are, entry by entry, the
  one expression `(∑ x², + ∑ y²) − 2 · ∑ x y` (Proof/SqDist.lean): the sums run over the same 256 coordinates in both
  programs, the narrowing of the product's operands is the identity there, and the only law used is `0 + a = a` for
  the sums' initial value, so the inputs' finiteness is never opened.

  Proof/Tile.lean reads the body's stored value at a tile entry; Proof/Whole.lean shows that every grid point writes
  back its tile of the one matrix and that the tiles cover the array; Proof/RefDist.lean reads the reference's stages
  at an entry. The frames are the generated ones; the reference's is its generated run with the result dropped.
-/
import proofs.«121922_j22445499089119_1_alg».proof.Defs
import proofs.«121922_j22445499089119_1_alg».proof.Proof.Gen.Kernel
import proofs.«121922_j22445499089119_1_alg».proof.Proof.Gen.Kernel.Skeleton
import proofs.«121922_j22445499089119_1_alg».proof.Proof.Gen.Kernel.Launch
import proofs.«121922_j22445499089119_1_alg».proof.Proof.Gen.Kernel.Points
import proofs.«121922_j22445499089119_1_alg».proof.Proof.Gen.Kernel.Frame
import proofs.«121922_j22445499089119_1_alg».proof.Proof.Gen.KernelIdeal
import proofs.«121922_j22445499089119_1_alg».proof.Proof.Gen.KernelIdeal.Skeleton
import proofs.«121922_j22445499089119_1_alg».proof.Proof.Gen.KernelIdeal.Launch
import proofs.«121922_j22445499089119_1_alg».proof.Proof.Gen.KernelIdeal.Points
import proofs.«121922_j22445499089119_1_alg».proof.Proof.Gen.KernelIdeal.Frame
import proofs.«121922_j22445499089119_1_alg».proof.Proof.Gen.KernelIdeal.Value
import proofs.«121922_j22445499089119_1_alg».proof.Proof.Gen.ReferenceIdeal
import proofs.«121922_j22445499089119_1_alg».proof.Proof.Gen.ReferenceIdeal.Run
import proofs.«121922_j22445499089119_1_alg».proof.Proof.Gen.ReferenceIdeal.Read
import proofs.«121922_j22445499089119_1_alg».proof.Proof.Gen.Pre_finite_inputs
import proofs.«121922_j22445499089119_1_alg».proof.Proof.Whole
import proofs.«121922_j22445499089119_1_alg».proof.Proof.RefDist
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference's run, its result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the squared-distance matrix of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.SqDist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.SqDist.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
